-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S200x10000 : Shape := ⟨2, ![200, 10000]⟩
abbrev S200x16 : Shape := ⟨2, ![200, 16]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S1x16, .f32⟩
  | .hbm, ⟨8, _⟩ => ⟨S1x16, .f32⟩
  | .hbm, ⟨9, _⟩ => ⟨S10000x16, .f32⟩
  | .hbm, ⟨10, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S200x10000, .f32⟩
  | .local _ .vmem, ⟨4, _⟩ => ⟨S200x10000, .f32⟩
  | .local _ .vmem, ⟨5, _⟩ => ⟨S10000x16, .f32⟩
  | .local _ .vmem, ⟨6, _⟩ => ⟨S1x16, .f32⟩
  | .local _ .vmem, ⟨7, _⟩ => ⟨S16x16, .f32⟩
  | .local _ .vmem, ⟨8, _⟩ => ⟨S200x16, .f32⟩
  | .local _ .vmem, ⟨9, _⟩ => ⟨S200x16, .f32⟩
  | .local _ .vmem, ⟨10, _⟩ => ⟨S200x10000, .f32⟩
  | .local _ .vmem, ⟨11, _⟩ => ⟨S200x10000, .f32⟩
  | .local _ .vmem, ⟨12, _⟩ => ⟨S10000x16, .f32⟩
  | .local _ .vmem, ⟨13, _⟩ => ⟨S1x16, .f32⟩
  | .local _ .vmem, ⟨14, _⟩ => ⟨S200x16, .f32⟩
  | .local _ .vmem, ⟨15, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S16_S1x16 : S16.ShapeCasts S1x16
  inb_S200x10000_S200x10000_0_0 : ∀ a, (![0, 0] : Fin 2 → Nat) a + S200x10000.size a ≤ S200x10000.size a
  h_S200x10000 : 0 < S200x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S16x16_S16x16_0_0 : ∀ a, (![0, 0] : Fin 2 → Nat) a + S16x16.size a ≤ S16x16.size a
  h_S16x16 : 0 < S16x16.numel
  inb_S200x16_S200x16_0_0 : ∀ a, (![0, 0] : Fin 2 → Nat) a + S200x16.size a ≤ S200x16.size a
  h_S200x16 : 0 < S200x16.numel
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  dot_S200x16_S16x16_S200x16_1_0_0_1_n_n_wf : DotDims.WF S200x16 S16x16 S200x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x16.size a ≤ S10000x16.size a
  hwx1_4 : ∀ i : grid1.Coords, EltTy.bits .f32 = 32 ∨ (Rect.block (s := S10000x16) S200x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x16.size a ≤ S10000x16.size a
  hwx2_3 : ∀ i : grid2.Coords, EltTy.bits .f32 = 32 ∨ (Rect.block (s := S10000x16) S200x16.size (cc2_transform_3 i) (hinb2_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S16x16_S200x16_1_0_0_1_n_n : DotDims S200x16 S16x16 S200x16 where
  lhsContracting := [1]
  rhsContracting := [0]
  lhsNonContracting := [0]
  rhsNonContracting := [1]
  lhsBatch := []
  rhsBatch := []
  wf := dot_S200x16_S16x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S200x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S_, .f32⟩
  | .hbm, ⟨13, _⟩ => ⟨S10000x16, .f32⟩
  | .hbm, ⟨14, _⟩ => ⟨S10000x16, .i1⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S1x16, .f32⟩
  | .hbm, ⟨22, _⟩ => ⟨S10000x16, .f32⟩
  | .hbm, ⟨23, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  A two-layer graph convolution over the extended reals, one row of the adjacency at a time.

  With  s₁ = x · W₁  (an [N,16] array),  the network is
      out = adj · s₂ + b₂ ,   s₂ = leaky(adj · s₁ + b₁) · W₂ ,   leaky(t) = t if t ≥ 0, else 0.01·t
  (the slope the f32 word both programs print). Row r of s₂ and row r of out depend on the adjacency only through
  ITS row r:  s₂[r,·] = rowHidden s₁ b₁ W₂ (adj[r,·])  and  out[r,·] = affine s₂ b₂ (adj[r,·]) . So a program that
  computes the rows in strips of 200 and one that computes all 10000 at once state the same function of a row;
  the lemmas below read each program's spelling of a layer at an entry (r, c) as that function, for any number of
  rows R, from the plain product laws (a product contracting axis 1 with axis 0 is the sum over k).
-/
import Idealize.ShloMosaic.PureOps.Ideal.Laws
import Idealize.ShloMosaic.Lib.ValueIdx
import Idealize.ShloMosaic.Lib.ValueLayout
import Idealize.ShloMosaic.Lib.Pipeline.Value
import proofs.«104630_g64364379897917_cont_sun_m_429_2_alg».proof.Proof.LibDense

noncomputable section

open scoped BigOperators

namespace Cert.Gcn

open Idealize.ShloMosaic Idealize.ShloMosaic.ValueIdx Cert.Dense

/-- The leaky rectifier on one number: t where t ≥ 0, the slope word's value times t elsewhere. -/
def leaky (t : EReal) : EReal :=
  Scalar.select (FloatOps.cmpf (F := Ideal) (φ := .f32) .oge t (Ideal.ofBits .f32 0x00000000#32)) t
    (Ideal.ofBits .f32 0x3C23D70A#32 * t)

/-- Row r of an [R,K] array as a function of the column. -/
def rowOf {R K : ℕ} (A : FVec Ideal ⟨2, ![R, K]⟩ .f32) (r : Fin R) : Fin K → EReal := fun k => A (ix2 r k)

/-- An [R,C] array given row by row. -/
def byRows {R C : ℕ} (f : Fin R → Fin C → EReal) : FVec Ideal ⟨2, ![R, C]⟩ .f32 := fun i => f (i 0) (i 1)

theorem byRows_apply {R C : ℕ} (f : Fin R → Fin C → EReal) (r : Fin R) (c : Fin C) : byRows f (ix2 r c) = f r c := rfl

/-- Two [R,C] arrays with the same entries are equal. -/
theorem ext2 {R C : ℕ} {u v : FVec Ideal ⟨2, ![R, C]⟩ .f32} (h : ∀ (r : Fin R) (c : Fin C), u (ix2 r c) = v (ix2 r c)) :
    u = v := funext fun i => by rw [eq_ix2 i]; exact h _ _

/-- The first layer's support  s₁ = x · W₁ : entry (r, c) is Σ_k x[r,k] · W₁[k,c]. -/
def support {N D H : ℕ} (x : FVec Ideal ⟨2, ![N, D]⟩ .f32) (W1 : FVec Ideal ⟨2, ![D, H]⟩ .f32) : FVec Ideal ⟨2, ![N, H]⟩ .f32 :=
  byRows fun r c => ∑ k : Fin D, x (ix2 r k) * W1 (ix2 k c)

/-- One row of  s₂ = leaky(adj · s₁ + b₁) · W₂  from the adjacency's row a:  q ↦ Σ_k leaky((Σ_j a_j·s₁[j,k]) + b₁[k]) · W₂[k,q]. -/
def rowHidden {N H : ℕ} (s1 : FVec Ideal ⟨2, ![N, H]⟩ .f32) (b1 : FVec Ideal ⟨1, ![H]⟩ .f32) (W2 : FVec Ideal ⟨2, ![H, H]⟩ .f32)
    (a : Fin N → EReal) : Fin H → EReal :=
  fun q => ∑ k : Fin H, leaky (affine s1 b1 a k) * W2 (ix2 k q)

/-- s₂ for the rows of an [R,N] strip A of the adjacency. -/
def hidden {R N H : ℕ} (A : FVec Ideal ⟨2, ![R, N]⟩ .f32) (s1 : FVec Ideal ⟨2, ![N, H]⟩ .f32) (b1 : FVec Ideal ⟨1, ![H]⟩ .f32)
    (W2 : FVec Ideal ⟨2, ![H, H]⟩ .f32) : FVec Ideal ⟨2, ![R, H]⟩ .f32 :=
  byRows fun r => rowHidden s1 b1 W2 (rowOf A r)

/-- adj · s₂ + b₂ for the rows of an [R,N] strip A of the adjacency. -/
def outRows {R N H : ℕ} (A : FVec Ideal ⟨2, ![R, N]⟩ .f32) (s2 : FVec Ideal ⟨2, ![N, H]⟩ .f32) (b2 : FVec Ideal ⟨1, ![H]⟩ .f32) :
    FVec Ideal ⟨2, ![R, H]⟩ .f32 :=
  byRows fun r => affine s2 b2 (rowOf A r)

/-- The whole network. -/
def gcn {N D H : ℕ} (x : FVec Ideal ⟨2, ![N, D]⟩ .f32) (adj : FVec Ideal ⟨2, ![N, N]⟩ .f32) (W1 : FVec Ideal ⟨2, ![D, H]⟩ .f32)
    (b1 : FVec Ideal ⟨1, ![H]⟩ .f32) (W2 : FVec Ideal ⟨2, ![H, H]⟩ .f32) (b2 : FVec Ideal ⟨1, ![H]⟩ .f32) :
    FVec Ideal ⟨2, ![N, H]⟩ .f32 :=
  outRows adj (hidden adj (support x W1) b1 W2) b2

/-! ## The matrix unit's spelling (a strip of R rows) -/

/-- A [1,C] row stretched over R rows reads, at (r, c), the row's entry (0, c). -/
theorem stretch_row_apply {R C : ℕ} {α : Type} (hbc : (⟨2, ![1, C]⟩ : Shape).Broadcasts ⟨2, ![R, C]⟩)
    (b : (⟨2, ![1, C]⟩ : Shape).Idx → α) (r : Fin R) (c : Fin C) :
    broadcastTo ⟨2, ![R, C]⟩ b hbc (ix2 r c) = b (ix2 (0 : Fin 1) c) := by
  refine broadcastTo_apply _ hbc (ix2 r c) (ix2 (0 : Fin 1) c) fun a => ?_
  match a with
  | ⟨0, _⟩ => exact (if_pos rfl).symm
  | ⟨1, _⟩ =>
    show c.val = if C = 1 then 0 else c.val
    split
    · have := c.isLt; omega
    · rfl

/-- The product of a strip with the support into zeros, plus the bias row stretched over the strip's rows, at (p, k):
    the affine map of the strip's row p. The bias row is a [1,C] array whose entry (0, c) is b[c]. -/
theorem kernel_affine_apply {R N C : ℕ} (d : DotDims ⟨2, ![R, N]⟩ ⟨2, ![N, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hss : (⟨2, ![N, C]⟩ : Shape).ShapeCasts ⟨2, ![N, C]⟩) (hsb : (⟨2, ![1, C]⟩ : Shape).ShapeCasts ⟨2, ![1, C]⟩)
    (hbc : (⟨2, ![1, C]⟩ : Shape).Broadcasts ⟨2, ![R, C]⟩)
    (A : FVec Ideal ⟨2, ![R, N]⟩ .f32) (s : FVec Ideal ⟨2, ![N, C]⟩ .f32) (brow : FVec Ideal ⟨2, ![1, C]⟩ .f32)
    (b : FVec Ideal ⟨1, ![C]⟩ .f32) (hb : ∀ c : Fin C, brow (ix2 (0 : Fin 1) c) = b (ix1 c)) (p : Fin R) (k : Fin C) :
    addf (matmul d none A (shapeCast ⟨2, ![N, C]⟩ s hss) (constant ⟨2, ![R, C]⟩ .f32 0x00000000#32))
        (broadcastTo ⟨2, ![R, C]⟩ (shapeCast ⟨2, ![1, C]⟩ brow hsb) hbc) (ix2 p k)
      = affine s b (rowOf A p) k := by
  rw [addf_apply, matmul_zero_plain_apply d h1 h2 h3 h4 h5 h6, shapeCast_self, shapeCast_self, stretch_row_apply hbc brow p k, hb k]
  rfl

/-- The kernel's leaky rectifier — compare with a splat of the zero word, multiply by a splat of the slope word, select — at an index. -/
theorem kernel_leaky_apply {s : Shape} (t : FVec Ideal s .f32) (i : s.Idx) :
    select (cmpf .oge t (broadcast s (Scalar.ofBits (F := Ideal) .f32 0x00000000#32))) t
        (mulf (broadcast s (Scalar.ofBits (F := Ideal) .f32 0x3C23D70A#32)) t) i
      = leaky (t i) := rfl

/-- The second region's strip of s₂ as the kernel spells it — the affine map, the rectifier, the product with W₂ into
    zeros — at (p, q). -/
theorem kernel_hidden_apply {R N H : ℕ} (d : DotDims ⟨2, ![R, N]⟩ ⟨2, ![N, H]⟩ ⟨2, ![R, H]⟩)
    (h1 : d.lhsContracting = [1]) (h2 : d.rhsContracting = [0]) (h3 : d.lhsNonContracting = [0])
    (h4 : d.rhsNonContracting = [1]) (h5 : d.lhsBatch = []) (h6 : d.rhsBatch = [])
    (e : DotDims ⟨2, ![R, H]⟩ ⟨2, ![H, H]⟩ ⟨2, ![R, H]⟩)
    (g1 : e.lhsContracting = [1]) (g2 : e.rhsContracting = [0]) (g3 : e.lhsNonContracting = [0])
    (g4 : e.rhsNonContracting = [1]) (g5 : e.lhsBatch = []) (g6 : e.rhsBatch = [])
    (hss : (⟨2, ![N, H]⟩ : Shape).ShapeCasts ⟨2, ![N, H]⟩) (hsb : (⟨2, ![1, H]⟩ : Shape).ShapeCasts ⟨2, ![1, H]⟩)
    (hbc : (⟨2, ![1, H]⟩ : Shape).Broadcasts ⟨2, ![R, H]⟩)
    (A : FVec Ideal ⟨2, ![R, N]⟩ .f32) (s1 : FVec Ideal ⟨2, ![N, H]⟩ .f32) (brow : FVec Ideal ⟨2, ![1, H]⟩ .f32)
    (W2 : FVec Ideal ⟨2, ![H, H]⟩ .f32)
    (b1 : FVec Ideal ⟨1, ![H]⟩ .f32) (hb : ∀ c : Fin H, brow (ix2 (0 : Fin 1) c) = b1 (ix1 c)) (p : Fin R) (q : Fin H) :
    matmul e none
        (select (cmpf .oge
            (addf (matmul d none A (shapeCast ⟨2, ![N, H]⟩ s1 hss) (constant ⟨2, ![R, H]⟩ .f32 0x00000000#32))
              (broadcastTo ⟨2, ![R, H]⟩ (shapeCast ⟨2, ![1, H]⟩ brow hsb) hbc))
            (broadcast ⟨2, ![R, H]⟩ (Scalar.ofBits (F := Ideal) .f32 0x00000000#32)))
          (addf (matmul d none A (shapeCast ⟨2, ![N, H]⟩ s1 hss) (constant ⟨2, ![R, H]⟩ .f32 0x00000000#32))
            (broadcastTo ⟨2, ![R, H]⟩ (shapeCast ⟨2, ![1, H]⟩ brow hsb) hbc))
          (mulf (broadcast ⟨2, ![R, H]⟩ (Scalar.ofBits (F := Ideal) .f32 0x3C23D70A#32))
            (addf (matmul d none A (shapeCast ⟨2, ![N, H]⟩ s1 hss) (constant ⟨2, ![R, H]⟩ .f32 0x00000000#32))
              (broadcastTo ⟨2, ![R, H]⟩ (shapeCast ⟨2, ![1, H]⟩ brow hsb) hbc))))
        W2 (constant ⟨2, ![R, H]⟩ .f32 0x00000000#32) (ix2 p q)
      = hidden A s1 b1 W2 (ix2 p q) := by
  rw [matmul_zero_plain_apply e g1 g2 g3 g4 g5 g6]
  show _ = ∑ k : Fin H, leaky (affine s1 b1 (rowOf A p) k) * W2 (ix2 k q)
  refine Finset.sum_congr rfl fun k _ => ?_
  rw [kernel_leaky_apply, kernel_affine_apply d h1 h2 h3 h4 h5 h6 hss hsb hbc A s1 brow b1 hb p k]

/-- The third region's strip of the result as the kernel spells it, at (p, q). -/
theorem kernel_out_apply {R N H : ℕ} (d : DotDims ⟨2, ![R, N]⟩ ⟨2, ![N, H]⟩ ⟨2, ![R, H]⟩)
    (h1 : d.lhsContracting = [1]) (h2 : d.rhsContracting = [0]) (h3 : d.lhsNonContracting = [0])
    (h4 : d.rhsNonContracting = [1]) (h5 : d.lhsBatch = []) (h6 : d.rhsBatch = [])
    (hss : (⟨2, ![N, H]⟩ : Shape).ShapeCasts ⟨2, ![N, H]⟩) (hsb : (⟨2, ![1, H]⟩ : Shape).ShapeCasts ⟨2, ![1, H]⟩)
    (hbc : (⟨2, ![1, H]⟩ : Shape).Broadcasts ⟨2, ![R, H]⟩)
    (A : FVec Ideal ⟨2, ![R, N]⟩ .f32) (s2 : FVec Ideal ⟨2, ![N, H]⟩ .f32) (brow : FVec Ideal ⟨2, ![1, H]⟩ .f32)
    (b2 : FVec Ideal ⟨1, ![H]⟩ .f32) (hb : ∀ c : Fin H, brow (ix2 (0 : Fin 1) c) = b2 (ix1 c)) (p : Fin R) (q : Fin H) :
    addf (matmul d none A (shapeCast ⟨2, ![N, H]⟩ s2 hss) (constant ⟨2, ![R, H]⟩ .f32 0x00000000#32))
        (broadcastTo ⟨2, ![R, H]⟩ (shapeCast ⟨2, ![1, H]⟩ brow hsb) hbc) (ix2 p q)
      = outRows A s2 b2 (ix2 p q) :=
  kernel_affine_apply d h1 h2 h3 h4 h5 h6 hss hsb hbc A s2 brow b2 hb p q

/-- The first region's product into zeros is the support. -/
theorem kernel_support_eq {N D H : ℕ} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![N, D]⟩ .f32) (W1 : FVec Ideal ⟨2, ![D, H]⟩ .f32) :
    matmul d none x W1 (constant ⟨2, ![N, H]⟩ .f32 0x00000000#32) = support x W1 :=
  ext2 fun r c => matmul_zero_plain_apply d h1 h2 h3 h4 h5 h6 none x W1 r c

/-- A [C] vector reshaped to a [1,C] row reads, at (0, c), the vector's entry c. -/
theorem reshape_row_apply {C : ℕ} {α : Type} (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) := by
  refine (shapeCast_addUnit_apply ![C] b hsc (ix2 (0 : Fin 1) c)).trans ?_
  exact congrArg b (funext fun a => match a with | ⟨0, _⟩ => rfl)

/-! ## The host's spelling (all N rows at once) -/

/-- The host's leaky rectifier — the zero and the slope scalars laid out over the array — at an index. -/
theorem host_leaky_apply {s : Shape} (hb0 : (⟨0, ![]⟩ : Shape).BroadcastsInDim s (![] : Fin 0 → Fin s.rank))
    (t : FVec Ideal s .f32) (i : s.Idx) :
    select (cmpf .oge t (broadcastInDim s ![] hb0 (constant (F := Ideal) ⟨0, ![]⟩ .f32 0x00000000#32))) t
        (mulf (broadcastInDim s ![] hb0 (constant (F := Ideal) ⟨0, ![]⟩ .f32 0x3C23D70A#32)) t) i
      = leaky (t i) := by
  have e0 : broadcastInDim s ![] hb0 (constant (F := Ideal) ⟨0, ![]⟩ .f32 0x00000000#32) i
      = Ideal.ofBits .f32 0x00000000#32 :=
    broadcastInDim_apply ![] hb0 _ i ix0 fun a => a.elim0
  have e1 : broadcastInDim s ![] hb0 (constant (F := Ideal) ⟨0, ![]⟩ .f32 0x3C23D70A#32) i
      = Ideal.ofBits .f32 0x3C23D70A#32 :=
    broadcastInDim_apply ![] hb0 _ i ix0 fun a => a.elim0
  rw [select_apply, cmpf_apply, mulf_apply, e0, e1]
  rfl

/-- The host's whole program is the network: each general product the sum over k, each bias laid out as a row over the
    rows, the rectifier entry by entry. -/
theorem host_gcn_eq {N D H : ℕ}
    (dx : DotDims ⟨2, ![N, D]⟩ ⟨2, ![D, H]⟩ ⟨2, ![N, H]⟩)
    (x1 : dx.lhsContracting = [1]) (x2 : dx.rhsContracting = [0]) (x3 : dx.lhsNonContracting = [0])
    (x4 : dx.rhsNonContracting = [1]) (x5 : dx.lhsBatch = []) (x6 : dx.rhsBatch = [])
    (d : DotDims ⟨2, ![N, N]⟩ ⟨2, ![N, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (e : DotDims ⟨2, ![N, H]⟩ ⟨2, ![H, H]⟩ ⟨2, ![N, H]⟩)
    (g1 : e.lhsContracting = [1]) (g2 : e.rhsContracting = [0]) (g3 : e.lhsNonContracting = [0])
    (g4 : e.rhsNonContracting = [1]) (g5 : e.lhsBatch = []) (g6 : e.rhsBatch = [])
    (hb0 : (⟨0, ![]⟩ : Shape).BroadcastsInDim ⟨2, ![N, H]⟩ (![] : Fin 0 → Fin 2))
    (hr1 : (⟨1, ![H]⟩ : Shape).BroadcastsInDim ⟨2, ![1, H]⟩ (![1] : Fin 1 → Fin 2))
    (hr2 : (⟨2, ![1, H]⟩ : Shape).BroadcastsInDim ⟨2, ![N, H]⟩ (![0, 1] : Fin 2 → Fin 2))
    (x : FVec Ideal ⟨2, ![N, D]⟩ .f32) (adj : FVec Ideal ⟨2, ![N, N]⟩ .f32) (W1 : FVec Ideal ⟨2, ![D, H]⟩ .f32)
    (b1 : FVec Ideal ⟨1, ![H]⟩ .f32) (W2 : FVec Ideal ⟨2, ![H, H]⟩ .f32) (b2 : FVec Ideal ⟨1, ![H]⟩ .f32) :
    addf (Host.dotGeneral d none adj
        (Host.dotGeneral e none
          (select (cmpf .oge
              (addf (Host.dotGeneral d none adj (Host.dotGeneral dx none x W1))
                (broadcastInDim ⟨2, ![N, H]⟩ ![0, 1] hr2 (broadcastInDim ⟨2, ![1, H]⟩ ![1] hr1 b1)))
              (broadcastInDim ⟨2, ![N, H]⟩ ![] hb0 (constant (F := Ideal) ⟨0, ![]⟩ .f32 0x00000000#32)))
            (addf (Host.dotGeneral d none adj (Host.dotGeneral dx none x W1))
              (broadcastInDim ⟨2, ![N, H]⟩ ![0, 1] hr2 (broadcastInDim ⟨2, ![1, H]⟩ ![1] hr1 b1)))
            (mulf (broadcastInDim ⟨2, ![N, H]⟩ ![] hb0 (constant (F := Ideal) ⟨0, ![]⟩ .f32 0x3C23D70A#32))
              (addf (Host.dotGeneral d none adj (Host.dotGeneral dx none x W1))
                (broadcastInDim ⟨2, ![N, H]⟩ ![0, 1] hr2 (broadcastInDim ⟨2, ![1, H]⟩ ![1] hr1 b1)))))
          W2))
      (broadcastInDim ⟨2, ![N, H]⟩ ![0, 1] hr2 (broadcastInDim ⟨2, ![1, H]⟩ ![1] hr1 b2))
      = gcn x adj W1 b1 W2 b2 := by
  -- the support
  have es : Host.dotGeneral dx none x W1 = support x W1 :=
    ext2 fun r c => dotGeneral_plain_apply dx x1 x2 x3 x4 x5 x6 none x W1 r c
  rw [es]
  -- the hidden layer's projection, row by row
  have eh : Host.dotGeneral e none
      (select (cmpf .oge
          (addf (Host.dotGeneral d none adj (support x W1))
            (broadcastInDim ⟨2, ![N, H]⟩ ![0, 1] hr2 (broadcastInDim ⟨2, ![1, H]⟩ ![1] hr1 b1)))
          (broadcastInDim ⟨2, ![N, H]⟩ ![] hb0 (constant (F := Ideal) ⟨0, ![]⟩ .f32 0x00000000#32)))
        (addf (Host.dotGeneral d none adj (support x W1))
          (broadcastInDim ⟨2, ![N, H]⟩ ![0, 1] hr2 (broadcastInDim ⟨2, ![1, H]⟩ ![1] hr1 b1)))
        (mulf (broadcastInDim ⟨2, ![N, H]⟩ ![] hb0 (constant (F := Ideal) ⟨0, ![]⟩ .f32 0x3C23D70A#32))
          (addf (Host.dotGeneral d none adj (support x W1))
            (broadcastInDim ⟨2, ![N, H]⟩ ![0, 1] hr2 (broadcastInDim ⟨2, ![1, H]⟩ ![1] hr1 b1)))))
      W2 = hidden adj (support x W1) b1 W2 := by
    refine ext2 fun r q => ?_
    rw [dotGeneral_plain_apply e g1 g2 g3 g4 g5 g6]
    show _ = ∑ k : Fin H, leaky (affine (support x W1) b1 (rowOf adj r) k) * W2 (ix2 k q)
    refine Finset.sum_congr rfl fun k _ => ?_
    rw [host_leaky_apply hb0, host_affine_apply d h1 h2 h3 h4 h5 h6 hr1 hr2 adj (support x W1) b1 r k]
    rfl
  rw [eh]
  -- the second layer, row by row
  refine ext2 fun r q => ?_
  rw [host_affine_apply d h1 h2 h3 h4 h5 h6 hr1 hr2 adj _ b2 r q]
  rfl

end Cert.Gcn

end
-- ==== Proof.KValue0.lean ====
/-
  The first region (the support  s₁ = x · W₁ , one gridless call), read as a value.

  The kernel has one point: it stages x and W₁ whole, multiplies them into a zero accumulator and writes the whole
  [10000,16] product back. So the result array ends at `support x W₁` — entry (r, c) the sum over k of x[r,k]·W₁[k,c] —
  for whatever contents the region is entered at.
-/
import proofs.«104630_g64364379897917_cont_sun_m_429_2_alg».proof.Proof.Gen.KernelIdeal.Frame
import proofs.«104630_g64364379897917_cont_sun_m_429_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them. -/
abbrev xA (c : Dev nD) : FVec Ideal S10000x128 .f32 := V c main_arg0
abbrev w1A (c : Dev nD) : FVec Ideal S128x16 .f32 := V c main_arg2

/-- The blocks the one point stages. -/
abbrev blk0 (c : Dev nD) (t : Fin cfg0.N) : FVec Ideal S10000x128 .f32 := iblk0 V c 0 t
abbrev blk1 (c : Dev nD) (t : Fin cfg0.N) : FVec Ideal S128x16 .f32 := iblk0 V c 1 t

/-- Every window's block index is zero on both axes. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- x and W₁ are staged whole. -/
theorem blk0_eq (c : Dev nD) (t : Fin cfg0.N) : blk0 V c t = xA V c := by
  obtain ⟨e0, e1, -⟩ := idx_facts t
  funext y
  unfold blk0 iblk0
  rw [View.read_apply]
  show V c main_arg0 _ = V c main_arg0 _
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

theorem blk1_eq (c : Dev nD) (t : Fin cfg0.N) : blk1 V c t = w1A V c := by
  obtain ⟨-, -, e0, e1, -⟩ := idx_facts t
  funext y
  unfold blk1 iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- The body's stored value is the support of what it loaded. -/
theorem pay_eq (x : FVec Ideal S10000x128 .f32) (W1 : FVec Ideal S128x16 .f32) :
    k0_pay1 (F := Ideal) x W1 = support x W1 :=
  kernel_support_eq dot_S10000x128_S128x16_S10000x16_1_0_0_1_n_n rfl rfl rfl rfl rfl rfl x W1

/-- What the point writes back is the (whole) block of `support` of the arrays as the region finds them. -/
theorem flushed_eq (c : Dev nD) (t : Fin cfg0.N) :
    (dat0 V c).flushed 2 t = ((cfg0.win 2).blk t).view.read (Elt Ideal) (support (xA V c) (w1A V c)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  show k0_pay1 (F := Ideal) (blk0 V c t) (blk1 V c t) = _
  rw [blk0_eq, blk1_eq, pay_eq]
  funext j
  rw [View.read_apply]
  refine congrArg _ (funext fun a => Fin.ext ?_)
  match a with
  | ⟨0, _⟩ => show (j 0).val = win0_2.index t (0 : Fin 2) * 10000 + 1 * (j 0).val; rw [e0]; omega
  | ⟨1, _⟩ => show (j 1).val = win0_2.index t (1 : Fin 2) * 16 + 1 * (j 1).val; rw [e1]; omega

/-- An index of the result array is in the point's block iff each coordinate is in the block's range on its axis. -/
theorem mem_blk (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The one point's block is the whole array. -/
theorem cover (i : S10000x16.Idx) :
    ∃ t : Fin cfg0.N, (cfg0.win 2).flush t = true ∧ i ∈ ((cfg0.win 2).blk t).view.set := by
  have hi0 : (i 0).val < 10000 := (i 0).isLt
  have hi1 : (i 1).val < 16 := (i 1).isLt
  obtain ⟨-, -, -, -, e0, e1⟩ := idx_facts t0_0
  refine ⟨t0_0, flush0_2 t0_0, ?_⟩
  rw [mem_blk]
  intro a
  match a with
  | ⟨0, _⟩ => show win0_2.index t0_0 (0 : Fin 2) * 10000 ≤ (i 0).val ∧ (i 0).val < win0_2.index t0_0 (0 : Fin 2) * 10000 + 10000; rw [e0]; omega
  | ⟨1, _⟩ => show win0_2.index t0_0 (1 : Fin 2) * 16 ≤ (i 1).val ∧ (i 1).val < win0_2.index t0_0 (1 : Fin 2) * 16 + 16; rw [e1]; omega

/-- The result array after the region: the support of x and W₁ as the region finds them. -/
theorem final (c : Dev nD) : (dat0 V c).arrAt 2 cfg0.N = support (xA V c) (w1A V c) :=
  (dat0 V c).arrAt_eq_of_cover 2 (support (xA V c) (w1A V c)) (fun t _ => flushed_eq V c t) cover

end Cert.KernelIdeal.Region0

end
-- ==== Proof.KValue1.lean ====
/-
  The second region (the first graph-convolution layer fused with the projection by W₂), read as a value.

  Its grid has 50 points; point t stages rows 200t … 200t+199 of the adjacency (window 0), the whole support s₁,
  the bias row and W₂ (windows 1–3, block index 0), and writes back rows 200t … 200t+199 of its result (window 4).
  What point t writes back is  leaky(A·s₁ + b₁)·W₂  for the strip A it staged, and that depends on the adjacency row by
  row: entry (p, q) of the strip's result is `rowHidden s₁ b₁ W₂` of adjacency row 200t+p, at q — entry (200t+p, q) of
  `hidden adj s₁ b₁ W₂`. The 50 strips cover the 10000 rows, so the result array ends at `hidden adj s₁ b₁ W₂`,
  for whatever contents the region is entered at.
-/
import proofs.«104630_g64364379897917_cont_sun_m_429_2_alg».proof.Proof.Gen.KernelIdeal.Frame
import proofs.«104630_g64364379897917_cont_sun_m_429_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them. -/
abbrev adjA (c : Dev nD) : FVec Ideal S10000x10000 .f32 := V c main_arg1
abbrev s1A (c : Dev nD) : FVec Ideal S10000x16 .f32 := V c main_v0
abbrev browA (c : Dev nD) : FVec Ideal S1x16 .f32 := V c main_v1
abbrev w2A (c : Dev nD) : FVec Ideal S16x16 .f32 := V c main_arg4

/-- The blocks point t stages. -/
abbrev blk0 (c : Dev nD) (t : Fin cfg1.N) : FVec Ideal S200x10000 .f32 := iblk1 V c 0 t
abbrev blk1 (c : Dev nD) (t : Fin cfg1.N) : FVec Ideal S10000x16 .f32 := iblk1 V c 1 t
abbrev blk2 (c : Dev nD) (t : Fin cfg1.N) : FVec Ideal S1x16 .f32 := iblk1 V c 2 t
abbrev blk3 (c : Dev nD) (t : Fin cfg1.N) : FVec Ideal S16x16 .f32 := iblk1 V c 3 t

/-- The printed index maps over the grid: the adjacency's and the result's block row is the point, every other block
    index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_N (t : Fin cfg1.N) : t.val < 50 := lt_of_lt_of_eq t.isLt N_1

/-- Row p of point t's strip is row 200t + p of the array. -/
def rowAt (t : Fin cfg1.N) (p : Fin 200) : Fin 10000 := ⟨200 * t.val + p.val, by have := lt_N t; have := p.isLt; omega⟩

/-- The adjacency strip point t stages, entry by entry. -/
theorem blk0_apply (c : Dev nD) (t : Fin cfg1.N) (p : Fin 200) (k : Fin 10000) :
    blk0 V c t (ix2 p k) = adjA V c (ix2 (rowAt t p) k) := by
  obtain ⟨e0, e1, -⟩ := idx_facts t
  unfold blk0 iblk1
  rw [View.read_apply]
  show V c main_arg1 _ = V c main_arg1 _
  congr 1
  funext a
  apply Fin.ext
  match a with
  | ⟨0, _⟩ => show win1_0.index t (0 : Fin 2) * 200 + 1 * p.val = 200 * t.val + p.val; rw [e0]; omega
  | ⟨1, _⟩ => show win1_0.index t (1 : Fin 2) * 10000 + 1 * k.val = k.val; rw [e1]; omega

/-- The support, the bias row and W₂ are staged whole. -/
theorem blk1_eq (c : Dev nD) (t : Fin cfg1.N) : blk1 V c t = s1A V c := by
  obtain ⟨-, -, e0, e1, -⟩ := idx_facts t
  funext y
  unfold blk1 iblk1
  rw [View.read_apply]
  show V c main_v0 _ = V c main_v0 _
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 16 + 1 * (y 1).val = (y 1).val; rw [e1]; omega

theorem blk2_eq (c : Dev nD) (t : Fin cfg1.N) : blk2 V c t = browA V c := by
  obtain ⟨-, -, -, -, e0, e1, -⟩ := idx_facts t
  funext y
  unfold blk2 iblk1
  rw [View.read_apply]
  show V c main_v1 _ = V c main_v1 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 16 + 1 * (y 1).val = (y 1).val; rw [e1]; omega

theorem blk3_eq (c : Dev nD) (t : Fin cfg1.N) : blk3 V c t = w2A V c := by
  obtain ⟨-, -, -, -, -, -, e0, e1, -⟩ := idx_facts t
  funext y
  unfold blk3 iblk1
  rw [View.read_apply]
  show V c main_arg4 _ = V c main_arg4 _
  congr 1
  funext a
  apply Fin.ext
  match a with
  | ⟨0, _⟩ => show win1_3.index t (0 : Fin 2) * 16 + 1 * (y 0).val = (y 0).val; rw [e0]; omega
  | ⟨1, _⟩ => show win1_3.index t (1 : Fin 2) * 16 + 1 * (y 1).val = (y 1).val; rw [e1]; omega

/-- The body's stored value of a strip A, the support, the bias row and W₂ is the strip's rows of `hidden`. -/
theorem pay_eq (A : FVec Ideal S200x10000 .f32) (s1 : FVec Ideal S10000x16 .f32) (brow : FVec Ideal S1x16 .f32)
    (W2 : FVec Ideal S16x16 .f32) (b1 : FVec Ideal S16 .f32) (hb : ∀ q : Fin 16, brow (ix2 (0 : Fin 1) q) = b1 (ix1 q)) :
    k1_pay1 (F := Ideal) A s1 brow W2 = hidden A s1 b1 W2 :=
  ext2 fun p q =>
    kernel_hidden_apply dot_S200x10000_S10000x16_S200x16_1_0_0_1_n_n rfl rfl rfl rfl rfl rfl
      dot_S200x16_S16x16_S200x16_1_0_0_1_n_n rfl rfl rfl rfl rfl rfl
      shapeCasts_S10000x16_S10000x16 shapeCasts_S1x16_S1x16 broadcasts_S1x16_S200x16 A s1 brow W2 b1 hb p q

/-- A strip's rows of `hidden` are the array's: row p of point t's strip is row 200t + p. -/
theorem hidden_strip (c : Dev nD) (t : Fin cfg1.N) (s1 : FVec Ideal S10000x16 .f32) (b1 : FVec Ideal S16 .f32)
    (W2 : FVec Ideal S16x16 .f32) (p : Fin 200) (q : Fin 16) :
    hidden (blk0 V c t) s1 b1 W2 (ix2 p q) = hidden (adjA V c) s1 b1 W2 (ix2 (rowAt t p) q) := by
  show rowHidden s1 b1 W2 (rowOf (blk0 V c t) p) q = rowHidden s1 b1 W2 (rowOf (adjA V c) (rowAt t p)) q
  have e : rowOf (blk0 V c t) p = rowOf (adjA V c) (rowAt t p) := funext fun k => blk0_apply V c t p k
  rw [e]

/-- What point t writes back is block t of `hidden` of the arrays as the region finds them; the bias row is a [1,16]
    array whose entry (0, q) is b₁[q]. -/
theorem flushed_eq (c : Dev nD) (t : Fin cfg1.N) (b1 : FVec Ideal S16 .f32)
    (hb : ∀ q : Fin 16, browA V c (ix2 (0 : Fin 1) q) = b1 (ix1 q)) :
    (dat1 V c).flushed 4 t
      = ((cfg1.win 4).blk t).view.read (Elt Ideal) (hidden (adjA V c) (s1A V c) b1 (w2A V c)) := by
  obtain ⟨-, -, -, -, -, -, -, -, e0, e1⟩ := idx_facts t
  show (cfg1.win 4).cut (grid1.coords t) ((dat1 V c).after 4 t) = _
  rw [after1_4]
  unfold out1_4
  rw [View.canon_unit_zero hz]
  simp only [View.ld_unit_zero (S := S200x10000) hz, View.ld_unit_zero (S := S10000x16) hz,
    View.ld_unit_zero (S := S1x16) hz, View.ld_unit_zero (S := S16x16) hz]
  show k1_pay1 (F := Ideal) (blk0 V c t) (blk1 V c t) (blk2 V c t) (blk3 V c t) = _
  rw [blk1_eq, blk2_eq, blk3_eq, pay_eq _ _ _ _ b1 hb]
  funext j
  obtain ⟨p, q, rfl⟩ : ∃ (p : Fin 200) (q : Fin 16), j = ix2 p q := ⟨j 0, j 1, eq_ix2 j⟩
  rw [hidden_strip V c t _ _ _ p q, View.read_apply]
  refine congrArg _ (funext fun a => Fin.ext ?_)
  match a with
  | ⟨0, _⟩ => show 200 * t.val + p.val = win1_4.index t (0 : Fin 2) * 200 + 1 * p.val; rw [e0]; omega
  | ⟨1, _⟩ => show q.val = win1_4.index t (1 : Fin 2) * 16 + 1 * q.val; rw [e1]; omega

/-- An index of the result array is in point t's block iff each coordinate is in the block's range on its axis. -/
theorem mem_blk (t : Fin cfg1.N) (i : S10000x16.Idx) :
    i ∈ ((cfg1.win 4).blk t).view.set ↔ ∀ a : Fin 2, win1_4.index t a * S200x16.size a ≤ (i a).val ∧ (i a).val < win1_4.index t a * S200x16.size a + S200x16.size a := by
  show i ∈ ((View.whole main_v3).slice (win1_4.rect t)).set ↔ _
  rw [View.set_slice_whole, Rect.mem_set_unit]
  exact Iff.rfl

/-- Every row of the result lies in the strip of the point  row / 200 . -/
theorem cover (i : S10000x16.Idx) :
    ∃ t : Fin cfg1.N, (cfg1.win 4).flush t = true ∧ i ∈ ((cfg1.win 4).blk t).view.set := by
  have hi0 : (i 0).val < 10000 := (i 0).isLt
  have hi1 : (i 1).val < 16 := (i 1).isLt
  let t : Fin cfg1.N := ⟨(i 0).val / 200, by rw [show cfg1.N = 50 from N_1]; omega⟩
  obtain ⟨-, -, -, -, -, -, -, -, e0, e1⟩ := idx_facts t
  refine ⟨t, flush1_4 t, ?_⟩
  rw [mem_blk]
  intro a
  have ht : t.val = (i 0).val / 200 := rfl
  match a with
  | ⟨0, _⟩ => show win1_4.index t (0 : Fin 2) * 200 ≤ (i 0).val ∧ (i 0).val < win1_4.index t (0 : Fin 2) * 200 + 200; rw [e0]; omega
  | ⟨1, _⟩ => show win1_4.index t (1 : Fin 2) * 16 ≤ (i 1).val ∧ (i 1).val < win1_4.index t (1 : Fin 2) * 16 + 16; rw [e1]; omega

/-- The result array after the region: `hidden` of the adjacency, the support, the bias and W₂ as the region finds them. -/
theorem final (c : Dev nD) (b1 : FVec Ideal S16 .f32) (hb : ∀ q : Fin 16, browA V c (ix2 (0 : Fin 1) q) = b1 (ix1 q)) :
    (dat1 V c).arrAt 4 cfg1.N = hidden (adjA V c) (s1A V c) b1 (w2A V c) :=
  (dat1 V c).arrAt_eq_of_cover 4 (hidden (adjA V c) (s1A V c) b1 (w2A V c)) (fun t _ => flushed_eq V c t b1 hb) cover

end Cert.KernelIdeal.Region1

end
-- ==== Proof.KValue2.lean ====
/-
  The third region (the second graph-convolution layer), read as a value.

  Its grid has 50 points; point t stages rows 200t … 200t+199 of the adjacency (window 0), the whole s₂ and the bias
  row (windows 1–2, block index 0), and writes back rows 200t … 200t+199 of  A·s₂ + b₂  for the strip A it staged
  (window 3). Entry (p, q) of that strip is the affine map of adjacency row 200t+p at q — entry (200t+p, q) of
  `outRows adj s₂ b₂`. The 50 strips cover the 10000 rows, so the result array ends at `outRows adj s₂ b₂`, for
  whatever contents the region is entered at.
-/
import proofs.«104630_g64364379897917_cont_sun_m_429_2_alg».proof.Proof.Gen.KernelIdeal.Frame
import proofs.«104630_g64364379897917_cont_sun_m_429_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gcn Cert.Dense

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them. -/
abbrev adjA (c : Dev nD) : FVec Ideal S10000x10000 .f32 := V c main_arg1
abbrev s2A (c : Dev nD) : FVec Ideal S10000x16 .f32 := V c main_v3
abbrev browA (c : Dev nD) : FVec Ideal S1x16 .f32 := V c main_v2

/-- The blocks point t stages. -/
abbrev blk0 (c : Dev nD) (t : Fin cfg2.N) : FVec Ideal S200x10000 .f32 := iblk2 V c 0 t
abbrev blk1 (c : Dev nD) (t : Fin cfg2.N) : FVec Ideal S10000x16 .f32 := iblk2 V c 1 t
abbrev blk2 (c : Dev nD) (t : Fin cfg2.N) : FVec Ideal S1x16 .f32 := iblk2 V c 2 t

/-- The printed index maps over the grid: the adjacency's and the result's block row is the point, every other block
    index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 50 := lt_of_lt_of_eq t.isLt N_2

/-- Row p of point t's strip is row 200t + p of the array. -/
def rowAt (t : Fin cfg2.N) (p : Fin 200) : Fin 10000 := ⟨200 * t.val + p.val, by have := lt_N t; have := p.isLt; omega⟩

/-- The adjacency strip point t stages, entry by entry. -/
theorem blk0_apply (c : Dev nD) (t : Fin cfg2.N) (p : Fin 200) (k : Fin 10000) :
    blk0 V c t (ix2 p k) = adjA V c (ix2 (rowAt t p) k) := by
  obtain ⟨e0, e1, -⟩ := idx_facts t
  unfold blk0 iblk2
  rw [View.read_apply]
  show V c main_arg1 _ = V c main_arg1 _
  congr 1
  funext a
  apply Fin.ext
  match a with
  | ⟨0, _⟩ => show win2_0.index t (0 : Fin 2) * 200 + 1 * p.val = 200 * t.val + p.val; rw [e0]; omega
  | ⟨1, _⟩ => show win2_0.index t (1 : Fin 2) * 10000 + 1 * k.val = k.val; rw [e1]; omega

/-- s₂ and the bias row are staged whole. -/
theorem blk1_eq (c : Dev nD) (t : Fin cfg2.N) : blk1 V c t = s2A V c := by
  obtain ⟨-, -, e0, e1, -⟩ := idx_facts t
  funext y
  unfold blk1 iblk2
  rw [View.read_apply]
  show V c main_v3 _ = V c main_v3 _
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 16 + 1 * (y 1).val = (y 1).val; rw [e1]; omega

theorem blk2_eq (c : Dev nD) (t : Fin cfg2.N) : blk2 V c t = browA V c := by
  obtain ⟨-, -, -, -, e0, e1, -⟩ := idx_facts t
  funext y
  unfold blk2 iblk2
  rw [View.read_apply]
  show V c main_v2 _ = V c main_v2 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 16 + 1 * (y 1).val = (y 1).val; rw [e1]; omega

/-- The body's stored value of a strip A, s₂ and the bias row is the strip's rows of `outRows`. -/
theorem pay_eq (A : FVec Ideal S200x10000 .f32) (s2 : FVec Ideal S10000x16 .f32) (brow : FVec Ideal S1x16 .f32)
    (b2 : FVec Ideal S16 .f32) (hb : ∀ q : Fin 16, brow (ix2 (0 : Fin 1) q) = b2 (ix1 q)) :
    k2_pay1 (F := Ideal) A s2 brow = outRows A s2 b2 :=
  ext2 fun p q =>
    kernel_out_apply dot_S200x10000_S10000x16_S200x16_1_0_0_1_n_n rfl rfl rfl rfl rfl rfl
      shapeCasts_S10000x16_S10000x16 shapeCasts_S1x16_S1x16 broadcasts_S1x16_S200x16 A s2 brow b2 hb p q

/-- A strip's rows of `outRows` are the array's: row p of point t's strip is row 200t + p. -/
theorem out_strip (c : Dev nD) (t : Fin cfg2.N) (s2 : FVec Ideal S10000x16 .f32) (b2 : FVec Ideal S16 .f32)
    (p : Fin 200) (q : Fin 16) :
    outRows (blk0 V c t) s2 b2 (ix2 p q) = outRows (adjA V c) s2 b2 (ix2 (rowAt t p) q) := by
  show affine s2 b2 (rowOf (blk0 V c t) p) q = affine s2 b2 (rowOf (adjA V c) (rowAt t p)) q
  have e : rowOf (blk0 V c t) p = rowOf (adjA V c) (rowAt t p) := funext fun k => blk0_apply V c t p k
  rw [e]

/-- What point t writes back is block t of `outRows` of the arrays as the region finds them; the bias row is a [1,16]
    array whose entry (0, q) is b₂[q]. -/
theorem flushed_eq (c : Dev nD) (t : Fin cfg2.N) (b2 : FVec Ideal S16 .f32)
    (hb : ∀ q : Fin 16, browA V c (ix2 (0 : Fin 1) q) = b2 (ix1 q)) :
    (dat2 V c).flushed 3 t
      = ((cfg2.win 3).blk t).view.read (Elt Ideal) (outRows (adjA V c) (s2A V c) b2) := by
  obtain ⟨-, -, -, -, -, -, e0, e1⟩ := idx_facts t
  show (cfg2.win 3).cut (grid2.coords t) ((dat2 V c).after 3 t) = _
  rw [after2_3]
  unfold out2_3
  rw [View.canon_unit_zero hz]
  simp only [View.ld_unit_zero (S := S200x10000) hz, View.ld_unit_zero (S := S10000x16) hz,
    View.ld_unit_zero (S := S1x16) hz]
  show k2_pay1 (F := Ideal) (blk0 V c t) (blk1 V c t) (blk2 V c t) = _
  rw [blk1_eq, blk2_eq, pay_eq _ _ _ b2 hb]
  funext j
  obtain ⟨p, q, rfl⟩ : ∃ (p : Fin 200) (q : Fin 16), j = ix2 p q := ⟨j 0, j 1, eq_ix2 j⟩
  rw [out_strip V c t _ _ p q, View.read_apply]
  refine congrArg _ (funext fun a => Fin.ext ?_)
  match a with
  | ⟨0, _⟩ => show 200 * t.val + p.val = win2_3.index t (0 : Fin 2) * 200 + 1 * p.val; rw [e0]; omega
  | ⟨1, _⟩ => show q.val = win2_3.index t (1 : Fin 2) * 16 + 1 * q.val; rw [e1]; omega

/-- An index of the result array is in point t's block iff each coordinate is in the block's range on its axis. -/
theorem mem_blk (t : Fin cfg2.N) (i : S10000x16.Idx) :
    i ∈ ((cfg2.win 3).blk t).view.set ↔ ∀ a : Fin 2, win2_3.index t a * S200x16.size a ≤ (i a).val ∧ (i a).val < win2_3.index t a * S200x16.size a + S200x16.size a := by
  show i ∈ ((View.whole main_v4).slice (win2_3.rect t)).set ↔ _
  rw [View.set_slice_whole, Rect.mem_set_unit]
  exact Iff.rfl

/-- Every row of the result lies in the strip of the point  row / 200 . -/
theorem cover (i : S10000x16.Idx) :
    ∃ t : Fin cfg2.N, (cfg2.win 3).flush t = true ∧ i ∈ ((cfg2.win 3).blk t).view.set := by
  have hi0 : (i 0).val < 10000 := (i 0).isLt
  have hi1 : (i 1).val < 16 := (i 1).isLt
  let t : Fin cfg2.N := ⟨(i 0).val / 200, by rw [show cfg2.N = 50 from N_2]; omega⟩
  obtain ⟨-, -, -, -, -, -, e0, e1⟩ := idx_facts t
  refine ⟨t, flush2_3 t, ?_⟩
  rw [mem_blk]
  intro a
  have ht : t.val = (i 0).val / 200 := rfl
  match a with
  | ⟨0, _⟩ => show win2_3.index t (0 : Fin 2) * 200 ≤ (i 0).val ∧ (i 0).val < win2_3.index t (0 : Fin 2) * 200 + 200; rw [e0]; omega
  | ⟨1, _⟩ => show win2_3.index t (1 : Fin 2) * 16 ≤ (i 1).val ∧ (i 1).val < win2_3.index t (1 : Fin 2) * 16 + 16; rw [e1]; omega

/-- The result array after the region: `outRows` of the adjacency, s₂ and the bias as the region finds them. -/
theorem final (c : Dev nD) (b2 : FVec Ideal S16 .f32) (hb : ∀ q : Fin 16, browA V c (ix2 (0 : Fin 1) q) = b2 (ix1 q)) :
    (dat2 V c).arrAt 3 cfg2.N = outRows (adjA V c) (s2A V c) b2 :=
  (dat2 V c).arrAt_eq_of_cover 3 (outRows (adjA V c) (s2A V c) b2) (fun t _ => flushed_eq V c t b2 hb) cover

end Cert.KernelIdeal.Region2

end
-- ==== Proof.KValue.lean ====
/-
  The kernel's result as a value: the three regions chained.

  Between the launch and the return the buffer contents change at four boundaries: after the first region (the support
  s₁ = x·W₁ lands in its result array), after the two host reshapes (the biases b₁, b₂ become [1,16] rows), after the
  second region (s₂ = leaky(adj·s₁ + b₁)·W₂ lands), after the third (adj·s₂ + b₂ lands). No region and no reshape
  writes an argument, so each region finds the adjacency, the weights and the biases as launched, and finds each
  earlier result where its region left it. Read through these boundaries the result array ends at `gcn x adj W₁ b₁ W₂ b₂`.
-/
import proofs.«104630_g64364379897917_cont_sun_m_429_2_alg».proof.Proof.Gen.KernelIdeal.Frame
import proofs.«104630_g64364379897917_cont_sun_m_429_2_alg».proof.Proof.Spec
import proofs.«104630_g64364379897917_cont_sun_m_429_2_alg».proof.Proof.KValue0
import proofs.«104630_g64364379897917_cont_sun_m_429_2_alg».proof.Proof.KValue1
import proofs.«104630_g64364379897917_cont_sun_m_429_2_alg».proof.Proof.KValue2
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

variable (m : (ℓ : Loc nD τ sig) → Buf (Elt Ideal) ℓ) (ρ : Dev nD → PrngReg)

/-- The argument arrays as launched. -/
abbrev xM (c : Dev nD) : FVec Ideal S10000x128 .f32 := m ((c : Thread nD τ).loc main_arg0)
abbrev adjM (c : Dev nD) : FVec Ideal S10000x10000 .f32 := m ((c : Thread nD τ).loc main_arg1)
abbrev w1M (c : Dev nD) : FVec Ideal S128x16 .f32 := m ((c : Thread nD τ).loc main_arg2)
abbrev b1M (c : Dev nD) : FVec Ideal S16 .f32 := m ((c : Thread nD τ).loc main_arg3)
abbrev w2M (c : Dev nD) : FVec Ideal S16x16 .f32 := m ((c : Thread nD τ).loc main_arg4)
abbrev b2M (c : Dev nD) : FVec Ideal S16 .f32 := m ((c : Thread nD τ).loc main_arg5)

/-! ## The two reshapes between the first and the second region -/

/-- The reshapes write only the two bias rows: the adjacency, the support and W₂ pass through. -/
theorem W2_main_arg1 (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps1, List.Forall, StableHlo.reshape_writes, Finset.mem_singleton]
    repeat' apply And.intro
    all_goals exact StableHlo.devRef_ne_of_ne (by decide)))
theorem W2_main_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.reshape_writes, Finset.mem_singleton]
    repeat' apply And.intro
    all_goals exact StableHlo.devRef_ne_of_ne (by decide)))
theorem W2_main_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps1, List.Forall, StableHlo.reshape_writes, Finset.mem_singleton]
    repeat' apply And.intro
    all_goals exact StableHlo.devRef_ne_of_ne (by decide)))

/-- The first reshape leaves b₁ as a [1,16] row, the second b₂. -/
theorem W2_main_v1 (c : Dev nD) :
    (W2 m ρ c (Proc.devRef .tc main_v1) : FVec Ideal S1x16 .f32)
      = shapeCast S1x16 (W1 m ρ c (Proc.devRef .tc main_arg3) : FVec Ideal S16 .f32) shapeCasts_S16_S1x16 := by
  show StableHlo.after hostOps1 (W1 m ρ c) (Proc.devRef .tc main_v1) = _
  after_results
  rfl
theorem W2_main_v2 (c : Dev nD) :
    (W2 m ρ c (Proc.devRef .tc main_v2) : FVec Ideal S1x16 .f32)
      = shapeCast S1x16 (W1 m ρ c (Proc.devRef .tc main_arg5) : FVec Ideal S16 .f32) shapeCasts_S16_S1x16 := by
  show StableHlo.after hostOps1 (W1 m ρ c) (Proc.devRef .tc main_v2) = _
  after_results
  rfl

/-! ## What the second region finds -/

theorem V2_adj (c : Dev nD) : Region1.adjA (V2 m ρ) c = adjM m c :=
  (W2_main_arg1 m ρ c).trans (W1_of_ne m ρ c main_arg1 (by decide))

/-- The support, where the first region left it. -/
theorem V2_s1 (c : Dev nD) : Region1.s1A (V2 m ρ) c = support (xM m c) (w1M m c) :=
  (W2_main_v0 m ρ c).trans ((W1_arr m ρ c 2).trans (Region0.final (V0 m ρ) c))

theorem V2_w2 (c : Dev nD) : Region1.w2A (V2 m ρ) c = w2M m c :=
  (W2_main_arg4 m ρ c).trans (W1_of_ne m ρ c main_arg4 (by decide))

/-- The bias row it finds is b₁ reshaped: entry (0, q) is b₁[q]. -/
theorem V2_brow (c : Dev nD) (q : Fin 16) : Region1.browA (V2 m ρ) c (ix2 (0 : Fin 1) q) = b1M m c (ix1 q) := by
  have e : Region1.browA (V2 m ρ) c = shapeCast S1x16 (b1M m c) shapeCasts_S16_S1x16 :=
    (W2_main_v1 m ρ c).trans (congrArg (fun v : FVec Ideal S16 .f32 => shapeCast S1x16 v shapeCasts_S16_S1x16)
      (W1_of_ne m ρ c main_arg3 (by decide)))
  rw [e]
  exact reshape_row_apply shapeCasts_S16_S1x16 (b1M m c) q

/-- s₂ after the second region. -/
theorem W3_main_v3 (c : Dev nD) :
    (W3 m ρ c (Proc.devRef .tc main_v3) : FVec Ideal S10000x16 .f32)
      = hidden (adjM m c) (support (xM m c) (w1M m c)) (b1M m c) (w2M m c) := by
  refine (W3_arr m ρ c 4).trans ?_
  rw [Region1.final (V2 m ρ) c (b1M m c) (V2_brow m ρ c), V2_adj, V2_s1, V2_w2]

/-! ## What the third region finds -/

theorem V3_adj (c : Dev nD) : Region2.adjA (V3 m ρ) c = adjM m c :=
  ((W3_arr m ρ c 0).trans (((dat1 (V2 m ρ) c).arrAt_in 0 rfl _).trans (A_eq1 (V2 m ρ) c 0))).trans (V2_adj m ρ c)

theorem V3_s2 (c : Dev nD) :
    Region2.s2A (V3 m ρ) c = hidden (adjM m c) (support (xM m c) (w1M m c)) (b1M m c) (w2M m c) :=
  W3_main_v3 m ρ c

/-- The bias row it finds is b₂ reshaped: entry (0, q) is b₂[q]. -/
theorem V3_brow (c : Dev nD) (q : Fin 16) : Region2.browA (V3 m ρ) c (ix2 (0 : Fin 1) q) = b2M m c (ix1 q) := by
  have e : Region2.browA (V3 m ρ) c = shapeCast S1x16 (b2M m c) shapeCasts_S16_S1x16 :=
    (W3_of_ne m ρ c main_v2 (by decide)).trans ((W2_main_v2 m ρ c).trans
      (congrArg (fun v : FVec Ideal S16 .f32 => shapeCast S1x16 v shapeCasts_S16_S1x16)
        (W1_of_ne m ρ c main_arg5 (by decide))))
  rw [e]
  exact reshape_row_apply shapeCasts_S16_S1x16 (b2M m c) q

/-! ## The result -/

/-- The result array at the last boundary is the network of the arguments as launched. -/
theorem result (c : Dev nD) :
    (W4 m ρ c (Proc.devRef .tc main_v4) : FVec Ideal S10000x16 .f32)
      = gcn (xM m c) (adjM m c) (w1M m c) (b1M m c) (w2M m c) (b2M m c) := by
  refine (W4_arr m ρ c 3).trans ?_
  rw [Region2.final (V3 m ρ) c (b2M m c) (V3_brow m ρ c), V3_adj, V3_s2]
  rfl

end Cert.KernelIdeal.Value

end
-- ==== Proof.RefRun.lean ====
/-
  The reference program read back: @main as ONE straight line of host operations — the leaky rectifier's outlined
  function and the select it calls written out at the call site, over the call's own buffers — and what every weakly
  fair execution leaves: the result buffer at the operations' composed term of the six argument arrays
  (`term`), the arguments unchanged.

  term = adj · (leaky(adj · (x · W1) + b1) · W2) + b2, each "·" the host's general product contracting the left
  operand's axis 1 with the right operand's axis 0, each bias laid out as a [1,16] row and then over the 10000 rows,
  leaky(t) = select(t ≥ 0, t, 0.01·t) with the zero and the slope scalars laid out over the array.
-/
import proofs.«104630_g64364379897917_cont_sun_m_429_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The leaky rectifier as the outlined function spells it: compare with the zero scalar laid out over the array,
    multiply by the slope scalar laid out over the array, select. -/
def leakyV (t : FVec F S10000x16 .f32) : FVec F S10000x16 .f32 :=
  select (cmpf .oge t (broadcastInDim S10000x16 ![] bcast_S_S10000x16 (constant S_ .f32 0x00000000#32)))
    t (mulf (broadcastInDim S10000x16 ![] bcast_S_S10000x16 (constant S_ .f32 0x3C23D70A#32)) t)

/-- One graph-convolution layer on the host: the adjacency times the support, plus the bias row on every row. -/
def layer (adj : FVec F S10000x10000 .f32) (s : FVec F S10000x16 .f32) (b : FVec F S16 .f32) : FVec F S10000x16 .f32 :=
  addf (Host.dotGeneral dot_S10000x10000_S10000x16_S10000x16_1_0_0_1_n_n none adj s)
    (broadcastInDim S10000x16 ![0, 1] bcast_S1x16_S10000x16_0_1 (broadcastInDim S1x16 ![1] bcast_S16_S1x16_1 b))

/-- The result as the operations' composed term of the argument arrays. -/
def term (x : FVec F S10000x128 .f32) (adj : FVec F S10000x10000 .f32) (W1 : FVec F S128x16 .f32) (b1 : FVec F S16 .f32)
    (W2 : FVec F S16x16 .f32) (b2 : FVec F S16 .f32) : FVec F S10000x16 .f32 :=
  layer adj
    (Host.dotGeneral dot_S10000x16_S16x16_S10000x16_1_0_0_1_n_n none
      (leakyV (layer adj (Host.dotGeneral dot_S10000x128_S128x16_S10000x16_1_0_0_1_n_n none x W1) b1)) W2) b2

/-- The eighteen operations in order: the first layer's five, the slope scalar, the rectifier's six and the select it
    calls written out over the call's own buffers (its operands the first layer's sum and the slope scalar), the second
    layer's five. -/
abbrev ops : List (HloOp τ sig (Elt F)) :=
  [ binary main_arg0 main_arg2 main_v0 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    binary main_arg1 main_v0 main_v1 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S10000x16 ![0, 1] bcast_S1x16_S10000x16_0_1 : (⟨S1x16, .f32⟩ : BufTy).Contents (Elt F) → (⟨S10000x16, .f32⟩ : BufTy).Contents (Elt F)),
    binary main_v1 main_v3 main_v4 (addf : (⟨S10000x16, .f32⟩ : BufTy).Contents (Elt F) → (⟨S10000x16, .f32⟩ : BufTy).Contents (Elt F) → (⟨S10000x16, .f32⟩ : BufTy).Contents (Elt F)),
    nullary main_cst (constant S_ .f32 0x3C23D70A#32),
    TRef.nullary main_call0.cst (constant S_ .f32 0x00000000#32),
    TRef.unary main_call0.cst main_call0.v0 (broadcastInDim S10000x16 ![] bcast_S_S10000x16),
    TRef.binary (.of main_v4) main_call0.v0 main_call0.v1 (cmpf .oge),
    TRef.unary (.of main_cst) main_call0.v2 id,
    TRef.unary main_call0.v2 main_call0.v3 (broadcastInDim S10000x16 ![] bcast_S_S10000x16),
    TRef.binary main_call0.v3 (.of main_v4) main_call0.v4 mulf,
    TRef.ternary main_call0.v1 (.of main_v4) main_call0.v4 main_call0.call0.v0 select,
    binary main_v5 main_arg4 main_v6 ((fun l r => Host.dotGeneral dot_S10000x16_S16x16_S10000x16_1_0_0_1_n_n none l r) : (⟨S10000x16, .f32⟩ : BufTy).Contents (Elt F) → (⟨S16x16, .f32⟩ : BufTy).Contents (Elt F) → (⟨S10000x16, .f32⟩ : BufTy).Contents (Elt F)),
    binary main_arg1 main_v6 main_v7 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg5 main_v8 (broadcastInDim S1x16 ![1] bcast_S16_S1x16_1 : (⟨S16, .f32⟩ : BufTy).Contents (Elt F) → (⟨S1x16, .f32⟩ : BufTy).Contents (Elt F)),
    unary main_v8 main_v9 (broadcastInDim S10000x16 ![0, 1] bcast_S1x16_S10000x16_0_1 : (⟨S1x16, .f32⟩ : BufTy).Contents (Elt F) → (⟨S10000x16, .f32⟩ : BufTy).Contents (Elt F)),
    binary main_v7 main_v9 main_v10 (addf : (⟨S10000x16, .f32⟩ : BufTy).Contents (Elt F) → (⟨S10000x16, .f32⟩ : BufTy).Contents (Elt F) → (⟨S10000x16, .f32⟩ : BufTy).Contents (Elt F)) ]

/-- @main is that straight line: the rectifier's and the select's definitions unfolded at their calls, both sides are one
    chain of host steps once sequencing is reassociated. -/
theorem main_eq (c : Dev nD) : main (F := F) c = seq ops := by
  simp only [main, fn_leaky_relu.body, fn_where.body, seq, bind_assoc, pure_bind]

/-- No TensorCore buffer of the signature is scoped. -/
theorem scopedRefs_eq : (Finset.univ.filter fun b : Ref sig .tc => b.isScoped) = ∅ := by decide

/-- No semaphore of the signature is scoped (there is none). -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., binary_bufs_sub .., unary_bufs_sub .., unary_bufs_sub .., binary_bufs_sub ..⟩

/-- On every device, from any memory with zero counters: every weakly fair execution of @main terminates with the
    result at `term` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = term (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v10).trans (by after_results; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.RefRun

end
-- ==== Proof.RefValue.lean ====
/-
  The reference's composed term is the network.

  Each of its three general products contracts the left operand's axis 1 with the right operand's axis 0 (no batch
  axes), so it is the sum over k at every entry; each bias is laid out as a [1,16] row and then over the rows; the
  outlined rectifier compares with zero, scales by the slope word and selects, entry by entry. Row by row that is
  `gcn`.
-/
import proofs.«104630_g64364379897917_cont_sun_m_429_2_alg».proof.Proof.RefRun
import proofs.«104630_g64364379897917_cont_sun_m_429_2_alg».proof.Proof.Spec

noncomputable section

namespace Cert.ReferenceIdeal.RefValue

open Cert.ReferenceIdeal Cert.ReferenceIdeal.Gen Cert.Gcn Idealize.ShloMosaic

/-- The reference's result term at the extended reals is the two-layer graph convolution of its arguments. -/
theorem term_eq (x : FVec Ideal S10000x128 .f32) (adj : FVec Ideal S10000x10000 .f32) (W1 : FVec Ideal S128x16 .f32)
    (b1 : FVec Ideal S16 .f32) (W2 : FVec Ideal S16x16 .f32) (b2 : FVec Ideal S16 .f32) :
    RefRun.term (F := Ideal) x adj W1 b1 W2 b2 = gcn x adj W1 b1 W2 b2 := by
  unfold RefRun.term RefRun.layer RefRun.leakyV
  exact host_gcn_eq dot_S10000x128_S128x16_S10000x16_1_0_0_1_n_n rfl rfl rfl rfl rfl rfl
    dot_S10000x10000_S10000x16_S10000x16_1_0_0_1_n_n rfl rfl rfl rfl rfl rfl
    dot_S10000x16_S16x16_S10000x16_1_0_0_1_n_n rfl rfl rfl rfl rfl rfl
    bcast_S_S10000x16 bcast_S16_S1x16_1 bcast_S1x16_S10000x16_0_1 x adj W1 b1 W2 b2

end Cert.ReferenceIdeal.RefValue

end
-- ==== Proof.lean ====
/-
  The certificate of a two-layer graph convolution with a dense adjacency,
      out = adj · (leaky(adj · (x · W₁) + b₁) · W₂) + b₂ ,   leaky(t) = t if t ≥ 0, else 0.01·t ,
  computed by three kernel launches (the support x·W₁ in one gridless call; then two calls that stream the adjacency in
  strips of 200 rows, the first fusing the rectifier and the projection by W₂) against the same formula written with
  whole-array host products.

  Over the extended reals both programs compute the SAME function entry by entry, and no algebraic law is needed
  beyond reading each product as the sum over its contracted axis: a product into a zero accumulator and the host's
  general product are that sum, a row of either layer depends on the adjacency only through the same row, and the
  strips tile the rows. So the equivalence does not use the finiteness of the inputs.

  The frames of the two kernel programs are the generated ones; the reference's frame is its run with the result
  dropped; the idealization rewrote nothing, so `preserves` is trivial.
-/
import proofs.«104630_g64364379897917_cont_sun_m_429_2_alg».proof.Defs
import proofs.«104630_g64364379897917_cont_sun_m_429_2_alg».proof.Proof.Gen.Kernel
import proofs.«104630_g64364379897917_cont_sun_m_429_2_alg».proof.Proof.Gen.Kernel.Skeleton
import proofs.«104630_g64364379897917_cont_sun_m_429_2_alg».proof.Proof.Gen.Kernel.Launch
import proofs.«104630_g64364379897917_cont_sun_m_429_2_alg».proof.Proof.Gen.Kernel.Points
import proofs.«104630_g64364379897917_cont_sun_m_429_2_alg».proof.Proof.Gen.Kernel.Frame
import proofs.«104630_g64364379897917_cont_sun_m_429_2_alg».proof.Proof.Gen.KernelIdeal
import proofs.«104630_g64364379897917_cont_sun_m_429_2_alg».proof.Proof.Gen.KernelIdeal.Skeleton
import proofs.«104630_g64364379897917_cont_sun_m_429_2_alg».proof.Proof.Gen.KernelIdeal.Launch
import proofs.«104630_g64364379897917_cont_sun_m_429_2_alg».proof.Proof.Gen.KernelIdeal.Points
import proofs.«104630_g64364379897917_cont_sun_m_429_2_alg».proof.Proof.Gen.KernelIdeal.Frame
import proofs.«104630_g64364379897917_cont_sun_m_429_2_alg».proof.Proof.Gen.ReferenceIdeal
import proofs.«104630_g64364379897917_cont_sun_m_429_2_alg».proof.Proof.Gen.Pre_finite_inputs
import proofs.«104630_g64364379897917_cont_sun_m_429_2_alg».proof.Proof.KernelRun
import proofs.«104630_g64364379897917_cont_sun_m_429_2_alg».proof.Proof.KValue
import proofs.«104630_g64364379897917_cont_sun_m_429_2_alg».proof.Proof.RefRun
import proofs.«104630_g64364379897917_cont_sun_m_429_2_alg».proof.Proof.RefValue
import Idealize.ShloMosaic.Adequacy
import Idealize.ShloMosaic.Init

noncomputable section

namespace Cert.Proof

open Idealize.ShloMosaic Idealize.SL.Sem Cert.Gcn

/-- The word-level kernel runs and leaves its arguments as launched. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the result array at `gcn` of the (agreeing) arguments: the kernel's three regions chained,
    the reference's composed term read row by row. -/
theorem algebraic : Cert.algebraic_KernelIdeal_ReferenceIdeal := by
  intro m ρ m' ρ' _ hagree
  refine ⟨fun c => gcn (Cert.KernelIdeal.Value.xM m c) (Cert.KernelIdeal.Value.adjM m c) (Cert.KernelIdeal.Value.w1M m c)
      (Cert.KernelIdeal.Value.b1M m c) (Cert.KernelIdeal.Value.w2M m c) (Cert.KernelIdeal.Value.b2M m c), ?_, ?_⟩
  · exact (θ_run Cert.KernelIdeal.defs _ _).mono
      (fun _ h c => ⟨(h c).1.trans (Cert.KernelIdeal.Value.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact Cert.ReferenceIdeal.RefValue.term_eq _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
